-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S8192x8192 : Shape := ⟨2, ![8192, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S4096x8192 .f32) (main_arg1 : FVec F S8192x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S4096x8192 : Shape := ⟨2, ![4096, 8192]⟩
abbrev S8192x8192 : Shape := ⟨2, ![8192, 8192]⟩
abbrev S1x8192 : Shape := ⟨2, ![1, 8192]⟩
abbrev S512x8192 : Shape := ⟨2, ![512, 8192]⟩
abbrev S8192 : Shape := ⟨1, ![8192]⟩
abbrev S4096x1 : Shape := ⟨2, ![4096, 1]⟩
abbrev S512x1 : Shape := ⟨2, ![512, 1]⟩
abbrev S512 : Shape := ⟨1, ![512]⟩

abbrev nBuf : Space → Nat
  | .hbm => 4
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S8192x8192, .f32⟩
  | .hbm, ⟨2, _⟩ => ⟨S1x8192, .f32⟩
  | .hbm, ⟨3, _⟩ => ⟨S4096x1, .f32⟩
  | .local _ .vmem, ⟨0, _⟩ => ⟨S512x8192, .f32⟩
  | .local _ .vmem, ⟨1, _⟩ => ⟨S512x8192, .f32⟩
  | .local _ .vmem, ⟨2, _⟩ => ⟨S1x8192, .f32⟩
  | .local _ .vmem, ⟨3, _⟩ => ⟨S512x8192, .f32⟩
  | .local _ .vmem, ⟨4, _⟩ => ⟨S512x8192, .f32⟩
  | .local _ .vmem, ⟨5, _⟩ => ⟨S1x8192, .f32⟩
  | .local _ .vmem, ⟨6, _⟩ => ⟨S512x1, .f32⟩
  | .local _ .vmem, ⟨7, _⟩ => ⟨S512x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S512x8192_S512x8192_0_0 : ∀ a, (![0, 0] : Fin 2 → Nat) a + S512x8192.size a ≤ S512x8192.size a
  h_S512x8192 : 0 < S512x8192.numel
  reduces_S512x8192_S8192 : S512x8192.Reduces [0] S8192
  shapeCasts_S8192_S1x8192 : S8192.ShapeCasts S1x8192
  broadcasts_S1x8192_S512x8192 : S1x8192.Broadcasts S512x8192
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S4096x8192.size a
  hwx1_0 : ∀ i : grid1.Coords, EltTy.bits .f32 = 32 ∨ (Rect.block (s := S4096x8192) S512x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x8192.size a
  hwx1_1 : ∀ i : grid1.Coords, EltTy.bits .f32 = 32 ∨ (Rect.block (s := S1x8192) S1x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)

variable [Facts₀]

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8192.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x8192 : Shape := ⟨2, ![4096, 8192]⟩
abbrev S8192x8192 : Shape := ⟨2, ![8192, 8192]⟩
abbrev S_ : Shape := ⟨0, ![]⟩
abbrev S4096 : Shape := ⟨1, ![4096]⟩
abbrev S4096x1 : Shape := ⟨2, ![4096, 1]⟩

abbrev nBuf : Space → Nat
  | .hbm => 12
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  reducesTo_S4096x8192_S4096_d1 : S4096x8192.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  dot_S4096x8192_S8192x8192_S4096x8192_1_1_0_0_n_n_wf : DotDims.WF S4096x8192 S8192x8192 S4096x8192 [1] [1] [0] [0] [] []

variable [Facts₀]

def dot_S4096x8192_S8192x8192_S4096x8192_1_1_0_0_n_n : DotDims S4096x8192 S8192x8192 S4096x8192 where
  lhsContracting := [1]
  rhsContracting := [1]
  lhsNonContracting := [0]
  rhsNonContracting := [0]
  lhsBatch := []
  rhsBatch := []
  wf := dot_S4096x8192_S8192x8192_S4096x8192_1_1_0_0_n_n_wf

class Facts : Prop extends Facts₀ where

variable [Facts]
-- ==== Proof.Region0Value.lean ====
/-
  Region 0 as a value. The first launch walks the 8192 x 8192 weight array in 16 blocks of 512 rows. Its one output
  block (a single row of 8192 entries) never moves: the first grid point clears it, every point adds to it the column
  sums of the point's 512 rows, and only the last point writes it back. So the row the launch leaves behind is the
  ordered running sum  ((0 + s_0) + s_1) + ... + s_15,  where s_t is the row of column sums of row block t.

  Here: what one grid point leaves in the output block in each of its two cases (the first point: zero plus the block's
  column sums; a later point: what the point before left plus the block's column sums), the running sum as a recursion on
  the point, that the block's contents after point n are the running sum (induction on n), and that the array the launch
  writes ends at the running sum after point 15 (that one write-back covers the whole one-row array).
-/
import proofs.«174365_j73315091744718_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.ColumnSums

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The row of zeros the first grid point stores. -/
abbrev zeroRow : Vec F S1x8192 .f32 := broadcast S1x8192 (Scalar.ofBits .f32 0x00000000#32)

/-- The column sums of one block of 512 rows, laid out as one row: entry (0, i) is the sum of column i of the block. -/
def colSums (x : Vec F S512x8192 .f32) : Vec F S1x8192 .f32 :=
  shapeCast S1x8192 (multiReduction .add [0] S8192 x 0x00000000#32 reduces_S512x8192_S8192 (.inl rfl) rfl) shapeCasts_S8192_S1x8192

/-- A later grid point: the output block held `xo`; the point leaves `xo` plus the column sums of its row block. -/
theorem out_later (c : Dev nD) (i : grid0.Coords) (a1 : Memref sig .tc .vmem S512x8192 .f32) (h1 : a1.IsWhole)
    (a2 : Memref sig .tc .vmem S1x8192 .f32) (h2 : a2.IsWhole) (hc : ¬cond0_0 i) (x : Vec F S512x8192 .f32) (xo : Vec F S1x8192 .f32) :
    out0_B_1 c i a1 h1 a2 h2 hc x xo = addf xo (colSums x) := by
  unfold out0_B_1
  rw [View.read_writes_eq_canon _ _ _ (cover0_B_1 c i a1 h1 a2 h2 hc x xo)]
  unfold kernelRun0_B
  dsimp only
  rw [View.canon_unit_zero hz]
  unfold k0_pay2 colSums
  simp only [View.readAt_eq_ld, h1.read_unread, h2.read_unread, View.ld_unit_zero (S := S1x8192) hz,
    View.ld_unit_zero (S := S512x8192) hz, shapeCast_self]

/-- The first grid point: it stores the row of zeros, reads it back, and leaves zero plus the column sums of its row block. -/
theorem out_first (c : Dev nD) (i : grid0.Coords) (a1 : Memref sig .tc .vmem S512x8192 .f32) (h1 : a1.IsWhole)
    (a2 : Memref sig .tc .vmem S1x8192 .f32) (h2 : a2.IsWhole) (hc : cond0_0 i) (x : Vec F S512x8192 .f32) :
    out0_A_1 c i a1 h1 a2 h2 hc x = addf zeroRow (colSums x) := by
  unfold out0_A_1
  rw [View.read_writes_eq_canon _ _ _ (cover0_A_1 c i a1 h1 a2 h2 hc x)]
  unfold kernelRun0_A
  dsimp only
  sl_unfold_words
  rw [View.canon_cons_unit_zero (S := S1x8192) hz, View.readCov_unit_zero (S := S1x8192) _ hz]
  unfold k0_pay2 k0_pay1 colSums
  simp only [View.readAt_eq_ld, h1.read_unread, View.ld_unit_zero (S := S1x8192) hz,
    View.ld_unit_zero (S := S512x8192) hz, shapeCast_self]

/-- Row block `t` of the weight array as region 0 finds it: 512 rows of 8192 entries. -/
abbrev rowBlock (c : Dev nD) (t : Fin cfg0.N) : Vec F S512x8192 .f32 := iblk0 V c 0 t

/-- The ordered running sum after point `n`: zero plus the first block's column sums, then one block's column sums more per point. -/
def running (c : Dev nD) : (n : ℕ) → n < cfg0.N → Vec F S1x8192 .f32
  | 0, h => addf zeroRow (colSums (rowBlock V c ⟨0, h⟩))
  | n + 1, h => addf (running c n (Nat.lt_of_succ_lt h)) (colSums (rowBlock V c ⟨n + 1, h⟩))

/-- After point `n` the output block holds the running sum: by induction on the point, the first point in the clearing case,
    every later one in the accumulating case over what the point before left. -/
theorem outsAt_eq (c : Dev nD) : ∀ (n : ℕ) (h : n < cfg0.N), outsAt0 V c n h = running V c n h
  | 0, h => (outsAt0_A V c ⟨0, h⟩ rfl).trans (out_first ..)
  | n + 1, h => by
    have hN : cfg0.N = 16 := N_0
    have hB : ¬(⟨n + 1, h⟩ : Fin cfg0.N).val % 16 = 0 := by dsimp only; omega
    rw [outsAt0_B V c ⟨n + 1, h⟩ hB, out_later]
    show addf (outsAt0 V c n _) _ = addf (running V c n _) _
    rw [outsAt_eq c n]

/-- What region 0 leaves in its result array: the running sum after the last point (its one block is the whole array). -/
abbrev result (c : Dev nD) : Buf (Elt F) ((c : Thread nD τ).loc main_v0) :=
  running V c 15 (by rw [show cfg0.N = 16 from N_0]; decide)

/-- The one write-back, at point 15, writes the running sum: block (0, 0) of the one-row array at zero offsets is the array. -/
theorem flushed_eq (c : Dev nD) (t : Fin cfg0.N) (hf : (cfg0.win 1).flush t = true) :
    (dat0 V c).flushed 1 t = ((cfg0.win 1).blk t).view.read (Elt F) (result V c) := by
  have hN : cfg0.N = 16 := N_0
  have h15 : t.val = 15 := by have := (flush0_1 t).mp hf; have := t.isLt; omega
  obtain rfl : t = t0_15 := Fin.ext h15
  show (cfg0.win 1).cut (grid0.coords t0_15) ((dat0 V c).after 1 t0_15) = _
  rw [after0_1, outsAt_eq]
  have hz' : (fun a => win0_1.index t0_15 a * main_v0.ty.shape.size a) = fun _ => 0 := funext fun a => by fin_cases a <;> decide
  exact (Memref.read_access_unit_zero (Elt F) main_v0 hz' (fun a => by rw [congrFun hz' a]; simp) (result V c)).symm

/-- So the array region 0 writes ends at the running sum after point 15: that point's block covers every index of it. -/
theorem final (c : Dev nD) : (dat0 V c).arrAt 1 cfg0.N = result V c :=
  (dat0 V c).arrAt_eq_of_cover 1 (result V c) (flushed_eq V c) fun i =>
    ⟨t0_15, (flush0_1 t0_15).mpr rfl, by
      show i ∈ ((View.whole main_v0).slice (win0_1.rect t0_15)).set
      rw [View.set_slice_whole, Rect.mem_set_unit]
      intro a
      have h0 : (i 0 : Nat) < 1 := (i 0).isLt
      have h1 : (i 1 : Nat) < 8192 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 1 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 8192 from by decide +kernel]; omega⟩

end Cert.KernelIdeal.ColumnSums

end
-- ==== Proof.LibAllReal.lean ====
/-
  Arrays over the extended reals whose every entry is a real number, and the operations that keep them so.

  An entry of an array over the extended reals is either a real number or one of the two infinities. The lemmas
  here say, for each operation of a host program read over the extended reals, that the result has only real
  entries when the operands have: the elementwise sum, difference, product and maximum (the sum, difference,
  product and maximum of two reals is a real); a re-indexing (each entry of the result IS an entry of the
  operand: a broadcast, a gather); a constant whose word denotes a real; the accumulating scatter (an entry of the
  operand plus a finite sum of entries of the updates); the contraction of two arrays (a finite sum of products).
  For the reciprocal square root the operand has to be POSITIVE, so there is a second predicate for arrays of
  positive reals, kept by a maximum with one positive side.
-/
import Idealize.ShloMosaic.PureOps.Ideal.Laws
import Idealize.ShloMosaic.PureOps.Contract
import Idealize.ShloMosaic.PureOps.ShapeOps
import Idealize.ShloMosaic.PureOps.Vector
import Mathlib.Analysis.SpecialFunctions.Pow.Real

noncomputable section

namespace Cert.Spec

open Idealize.ShloMosaic
open scoped BigOperators

/-- Every entry of the array is a real number (neither infinity). -/
def AllReal {S : Shape} (x : S.Idx → EReal) : Prop := ∀ i, ∃ r : ℝ, x i = (r : EReal)

/-! ## Scalars -/

/-- The maximum of two real numbers, taken in the extended reals, is their maximum as real numbers. -/
theorem coe_max_real (a b : ℝ) : max (a : EReal) (b : EReal) = ((max a b : ℝ) : EReal) :=
  (EReal.coe_strictMono.monotone.map_max).symm

/-- A finite sum of real numbers, taken in the extended reals, is a real number. -/
theorem exists_real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨ra, hra⟩ := hf a (Finset.mem_insert_self a s)
    obtain ⟨rs, hrs⟩ := ih (fun i hi => hf i (Finset.mem_insert_of_mem hi))
    exact ⟨ra + rs, by rw [Finset.sum_insert ha, hra, hrs, EReal.coe_add]⟩

/-- The word `0x3F800000` of the 32-bit format denotes the number one. -/
theorem ofBits_f32_one : Ideal.ofBits .f32 0x3F800000#32 = ((1 : ℝ) : EReal) := by
  simp [Ideal.ofBits, Ideal.ieee, -EReal.coe_mul]
  norm_num

/-- The word `0x00000000` of the 32-bit format denotes the real number zero. -/
theorem ofBits_f32_zero : Ideal.ofBits .f32 0x00000000#32 = ((0 : ℝ) : EReal) := by
  rw [Ideal.ofBits_zero_f32, EReal.coe_zero]

/-! ## Arrays of positive reals -/

/-- Every entry of the array is a positive real number. -/
def AllPos {S : Shape} (x : S.Idx → EReal) : Prop := ∀ i, ∃ r : ℝ, 0 < r ∧ x i = (r : EReal)

/-- An array of positive reals is an array of reals. -/
theorem AllPos.allReal {S : Shape} {x : S.Idx → EReal} (h : AllPos x) : AllReal x :=
  fun i => let ⟨r, _, hr⟩ := h i; ⟨r, hr⟩

variable {s t : Shape} {φ : FTy}

/-! ## Elementwise operations -/

/-- The elementwise product of two arrays of reals is an array of reals. -/
theorem AllReal.mulf {x y : FVec Ideal s φ} (hx : AllReal x) (hy : AllReal y) : AllReal (mulf (F := Ideal) x y) := by
  intro i
  obtain ⟨a, ha⟩ := hx i
  obtain ⟨b, hb⟩ := hy i
  exact ⟨a * b, by show x i * y i = _; rw [ha, hb, EReal.coe_mul]⟩

/-- The elementwise sum of two arrays of reals is an array of reals. -/
theorem AllReal.addf {x y : FVec Ideal s φ} (hx : AllReal x) (hy : AllReal y) : AllReal (addf (F := Ideal) x y) := by
  intro i
  obtain ⟨a, ha⟩ := hx i
  obtain ⟨b, hb⟩ := hy i
  exact ⟨a + b, by show x i + y i = _; rw [ha, hb, EReal.coe_add]⟩

/-- The elementwise difference of two arrays of reals is an array of reals. -/
theorem AllReal.subf {x y : FVec Ideal s φ} (hx : AllReal x) (hy : AllReal y) : AllReal (subf (F := Ideal) x y) := by
  intro i
  obtain ⟨a, ha⟩ := hx i
  obtain ⟨b, hb⟩ := hy i
  exact ⟨a - b, by show x i - y i = _; rw [ha, hb, EReal.coe_sub]⟩

/-- The elementwise maximum of two arrays of reals is an array of reals. -/
theorem AllReal.maximumf {x y : FVec Ideal s φ} (hx : AllReal x) (hy : AllReal y) :
    AllReal (maximumf (F := Ideal) x y) := by
  intro i
  obtain ⟨a, ha⟩ := hx i
  obtain ⟨b, hb⟩ := hy i
  exact ⟨max a b, by show max (x i) (y i) = _; rw [ha, hb, coe_max_real]⟩

/-- The elementwise maximum of an array of positive reals and an array of reals is an array of positive reals. -/
theorem AllPos.maximumf_left {x y : FVec Ideal s φ} (hx : AllPos x) (hy : AllReal y) :
    AllPos (maximumf (F := Ideal) x y) := by
  intro i
  obtain ⟨a, ha, hxa⟩ := hx i
  obtain ⟨b, hb⟩ := hy i
  exact ⟨max a b, lt_max_of_lt_left ha, by show max (x i) (y i) = _; rw [hxa, hb, coe_max_real]⟩

/-- The reciprocal square root of an array of positive reals is an array of positive reals: at a real `r > 0` it is
    the real `(√r)⁻¹`, neither of the corners (a negative operand, zero) being met. -/
theorem AllPos.hostRsqrt {x : FVec Ideal s φ} (hx : AllPos x) : AllPos (Host.rsqrt (F := Ideal) x) := by
  intro i
  obtain ⟨r, hr, hxr⟩ := hx i
  refine ⟨(Real.sqrt r)⁻¹, inv_pos.mpr (Real.sqrt_pos.mpr hr), ?_⟩
  show Ideal.rsqrt (x i) = _
  rw [hxr, Ideal.rsqrt_coe, if_neg (not_lt.mpr hr.le), if_neg hr.ne']

/-! ## Constants -/

/-- A constant array is an array of reals when its word denotes a real. -/
theorem AllReal.constant {b : BitVec φ.bits} {r : ℝ} (hb : Ideal.ofBits φ b = (r : EReal)) :
    AllReal (constant (F := Ideal) s φ b) :=
  fun _ => ⟨r, hb⟩

/-- A constant array is an array of positive reals when its word denotes a positive real. -/
theorem AllPos.constant {b : BitVec φ.bits} {r : ℝ} (hr : 0 < r) (hb : Ideal.ofBits φ b = (r : EReal)) :
    AllPos (constant (F := Ideal) s φ b) :=
  fun _ => ⟨r, hr, hb⟩

/-- The array of zeros of the 32-bit format is an array of reals. -/
theorem AllReal.constant_zero : AllReal (Idealize.ShloMosaic.constant (F := Ideal) s .f32 0x00000000#32) :=
  AllReal.constant ofBits_f32_zero

/-- The array of ones of the 32-bit format is an array of positive reals. -/
theorem AllPos.constant_one : AllPos (Idealize.ShloMosaic.constant (F := Ideal) s .f32 0x3F800000#32) :=
  AllPos.constant one_pos ofBits_f32_one

/-! ## Re-indexings: each entry of the result is an entry of the operand -/

/-- A broadcast of an array of reals is an array of reals. -/
theorem AllReal.broadcastInDim {dims : Fin s.rank → Fin t.rank} {h : s.BroadcastsInDim t dims} {x : s.Idx → EReal}
    (hx : AllReal x) : AllReal (broadcastInDim t dims h x) :=
  fun _ => hx _

/-- A broadcast of an array of positive reals is an array of positive reals. -/
theorem AllPos.broadcastInDim {dims : Fin s.rank → Fin t.rank} {h : s.BroadcastsInDim t dims} {x : s.Idx → EReal}
    (hx : AllPos x) : AllPos (broadcastInDim t dims h x) :=
  fun _ => hx _

/-- A gather from an array of reals is an array of reals, whatever the index array holds. -/
theorem AllReal.gather {si : Shape} {w : Nat} {d : GatherDims s si t} {x : s.Idx → EReal} {idx : IVec si w}
    (hx : AllReal x) : AllReal (Host.gather d x idx) :=
  fun _ => hx _

/-! ## Finite sums -/

/-- The accumulating scatter of an array of real updates into an array of reals is an array of reals, whatever the
    index array holds: each entry is an entry of the operand plus a finite sum of entries of the updates. -/
theorem AllReal.scatterAdd {si u : Shape} {w : Nat} {d : ScatterDims s si u} {x : FVec Ideal s φ} {idx : IVec si w}
    {upd : FVec Ideal u φ} (hx : AllReal x) (hu : AllReal upd) :
    AllReal (Host.scatterAdd (F := Ideal) d x idx upd) := by
  intro i
  obtain ⟨a, ha⟩ := hx i
  have key : ∀ S : Finset u.Idx, ∃ r : ℝ, x i + ∑ j ∈ S, upd j = (r : EReal) := by
    intro S
    obtain ⟨b, hb⟩ := exists_real_sum S upd (fun j _ => hu j)
    exact ⟨a + b, by rw [ha, hb, EReal.coe_add]⟩
  exact key _

/-- The contraction of two arrays of reals is an array of reals: each entry is a finite sum of products of an entry
    of the one and an entry of the other. -/
theorem AllReal.dotGeneral {sl sr so : Shape} {φ₁ φ₂ : FTy} {d : DotDims sl sr so} {prec : Option ContractPrecision}
    {l : FVec Ideal sl φ₁} {r : FVec Ideal sr φ₂} (hl : AllReal l) (hr : AllReal r) :
    AllReal (Host.dotGeneral (F := Ideal) d prec l r) := by
  intro j
  have e : Host.dotGeneral (F := Ideal) d prec l r j = ∑ k : d.contr.Idx, l (d.lhsIdx j k) * r (d.rhsIdx j k) :=
    Ideal.dotGeneral_apply d prec .single l r j
  rw [e]
  refine exists_real_sum _ _ (fun k _ => ?_)
  obtain ⟨a, ha⟩ := hl (d.lhsIdx j k)
  obtain ⟨b, hb⟩ := hr (d.rhsIdx j k)
  exact ⟨a * b, by rw [ha, hb, EReal.coe_mul]⟩

end Cert.Spec

end
-- ==== Proof.RealLaw.lean ====
/-
  The arithmetic that joins the two programs, over the real numbers.

  The reference forms every row-by-row product of the input `a` and the weights `B`, halves it, adds the halves over
  the rows h of the weights, and scales by 3/2. The kernel first adds the weights down each column, then takes one
  product of `a` with the column sums and scales by 3/4. The two agree because a finite sum of products factors:

      sum_h (sum_k a_k B_hk) / 2 * (3/2)  =  (sum_k a_k * sum_h B_hk) * (3/4).

  This is distributivity and an exchange of two finite sums, so it is a statement about real numbers; over the extended
  reals it would fail at the infinities, which is why the proof of the claim first shows that every entry is real.

  Also here: a finite sum of reals, taken in the extended reals, is the real sum; and a sum over the first k * m naturals
  taken in m consecutive blocks of k is the same sum (the kernel adds the 8192 rows of the weights in 16 blocks of 512).
-/
import proofs.«174365_j73315091744718_1_alg».proof.Proof.LibAllReal

noncomputable section

namespace Cert.Law

open scoped BigOperators

/-- A finite sum of real numbers, taken in the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the first `k * m` naturals, taken in `m` consecutive blocks of `k`. -/
theorem sum_blocks (g : ℕ → ℝ) (k : ℕ) :
    ∀ m : ℕ, ∑ t ∈ Finset.range m, ∑ r ∈ Finset.range k, g (k * t + r) = ∑ h ∈ Finset.range (k * m), g h
  | 0 => by simp
  | m + 1 => by rw [Finset.sum_range_succ, sum_blocks g k m, Nat.mul_succ, Finset.sum_range_add]

/-- Halve each row product, add over the rows, scale by 3/2: the same as one product with the column sums, scaled by 3/4. -/
theorem dot_of_column_sums {ι κ : Type} [Fintype ι] [Fintype κ] (a : ι → ℝ) (B : κ → ι → ℝ) :
    (0 + ∑ h, (∑ k, a k * B h k) * (1 / 2)) * (3 / 2) = (∑ k, a k * ∑ h, B h k) * (3 / 4) := by
  have e : ∑ k, a k * ∑ h, B h k = ∑ h, ∑ k, a k * B h k := by
    simp_rw [Finset.mul_sum]; exact Finset.sum_comm
  rw [e, zero_add, ← Finset.sum_mul]; ring

end Cert.Law

end
-- ==== Proof.Region0Ideal.lean ====
/-
  Region 0 over the extended reals, when every entry of the weight array is a real number.

  One entry of the row region 0 leaves is the running sum, over the 16 row blocks in order, of the block's column sum at
  that column, starting from zero. A block's column sum at column k is the sum of its 512 entries in column k, and entry
  r of block t is entry 512 t + r of the weight array. When the weights are reals `Wr`, every one of these sums is a
  real, so the entry at column k is the real number

      sum over t < 16 of (sum over r < 512 of Wr[512 t + r, k])  =  sum over h < 8192 of Wr[h, k],

  the sum of column k of the weights: adding in 16 blocks of 512 is adding all 8192 rows.
-/
import proofs.«174365_j73315091744718_1_alg».proof.Proof.Region0Value
import proofs.«174365_j73315091744718_1_alg».proof.Proof.RealLaw
import Idealize.ShloMosaic.Lib.ValueIdx
import Idealize.ShloMosaic.PureOps.Ideal.Laws

noncomputable section

open Idealize.ShloMosaic Idealize.ShloMosaic.TcCoe Idealize.SL.Sem
open Idealize.ShloMosaic.ValueIdx
open scoped BigOperators

namespace Cert.KernelIdeal.ColumnSums

open Cert.KernelIdeal Cert.KernelIdeal.Gen

variable (V : (c : Dev nD) → (b : Ref sig .tc) → Buf (Elt Ideal) ((c : Thread nD τ).loc b))

/-- The printed index map of the weight window over the grid: its block row is the point, its block column never moves. -/
theorem idx_facts : ∀ t : Fin cfg0.N, win0_0.index t (0 : Fin 2) = t.val ∧ win0_0.index t (1 : Fin 2) = 0 :=
  (by decide +kernel : ∀ t : Fin grid0.N, _)

/-- The column sums of a block at column `k`: the sum of the block's 512 entries in that column. -/
theorem colSums_apply (x : FVec Ideal S512x8192 .f32) (q : Fin 1) (k : Fin 8192) :
    colSums (F := Ideal) x (ix2 q k) = ∑ r : Fin 512, x (ix2 r k) := by
  unfold colSums
  refine (shapeCast_apply _ shapeCasts_S8192_S1x8192 (ix2 q k) (ix1 k) ?_).trans ?_
  · rw [Shape.rowMajor_val_one, Shape.rowMajor_val_two]
    show k.val = q.val * 8192 + k.val
    have := q.isLt; omega
  refine (Ideal.multiReduction_add_single _ 0x00000000#32 reduces_S512x8192_S8192 (.inl rfl) rfl (ix1 k)).trans ?_
  refine Finset.sum_congr rfl fun r _ => ?_
  exact congrArg x (funext fun a => Fin.ext (by match a with | ⟨0, _⟩ => rfl | ⟨1, _⟩ => rfl))

/-- Row `r` of the weight block at point `t` is row 512 t + r of the weight array. -/
theorem rowBlock_apply (c : Dev nD) (t : Fin cfg0.N) (r : Fin 512) (k : Fin 8192) (b : Fin 8192) (hb : b.val = 512 * t.val + r.val) :
    (rowBlock V c t : FVec Ideal S512x8192 .f32) (ix2 r k) = V c main_arg1 (ix2 b k) := by
  obtain ⟨e0, e1⟩ := idx_facts t
  unfold rowBlock iblk0
  rw [View.read_apply]
  show V c main_arg1 _ = V c main_arg1 _
  refine congrArg (V c main_arg1) (funext fun a => Fin.ext ?_)
  match a with
  | ⟨0, _⟩ => show win0_0.index t (0 : Fin 2) * 512 + 1 * r.val = b.val; rw [e0, hb]; omega
  | ⟨1, _⟩ => show win0_0.index t (1 : Fin 2) * 8192 + 1 * k.val = k.val; rw [e1]; omega

section Real

variable (c : Dev nD) (Wr : S8192x8192.Idx → ℝ)
  (hW : ∀ i : S8192x8192.Idx, (V c main_arg1 : FVec Ideal S8192x8192 .f32) i = ((Wr i : ℝ) : EReal))
  (k : Fin 8192)

/-- Column `k` of the real weights, as a function of the row number (zero past the last row). -/
def col : ℕ → ℝ := fun h => if hh : h < 8192 then Wr (ix2 (⟨h, hh⟩ : Fin 8192) k) else 0

/-- The real sum of the 512 entries of row block `t` in column `k`. -/
def blockSum (t : ℕ) : ℝ := ∑ r ∈ Finset.range 512, col Wr k (512 * t + r)

include hW in
/-- The column sum of block `t` at column `k` is that real number. -/
theorem colSums_block (t : Fin cfg0.N) (q : Fin 1) :
    colSums (F := Ideal) (rowBlock V c t) (ix2 q k) = ((blockSum Wr k t.val : ℝ) : EReal) := by
  have hN : cfg0.N = 16 := N_0
  have ht := t.isLt
  rw [colSums_apply, blockSum, Cert.Law.coe_sum, ← Fin.sum_univ_eq_sum_range (fun r => ((col Wr k (512 * t.val + r) : ℝ) : EReal)) 512]
  refine Finset.sum_congr rfl fun r _ => ?_
  have hr := r.isLt
  have hb : 512 * t.val + r.val < 8192 := by omega
  rw [rowBlock_apply V c t r k ⟨512 * t.val + r.val, hb⟩ rfl, hW]
  unfold col
  rw [dif_pos hb]

include hW in
/-- After point `n` the entry at column `k` is the real sum of the first `n + 1` block sums. -/
theorem running_apply (q : Fin 1) : ∀ (n : ℕ) (h : n < cfg0.N),
    running V c n h (ix2 q k) = ((∑ t ∈ Finset.range (n + 1), blockSum Wr k t : ℝ) : EReal)
  | 0, h => by
    show Ideal.ofBits .f32 0x00000000#32 + colSums (F := Ideal) (rowBlock V c ⟨0, h⟩) (ix2 q k) = _
    rw [colSums_block V c Wr hW k ⟨0, h⟩ q, Ideal.ofBits_zero_f32, zero_add, Finset.sum_range_one]
  | n + 1, h => by
    show running V c n _ (ix2 q k) + colSums (F := Ideal) (rowBlock V c ⟨n + 1, h⟩) (ix2 q k) = _
    rw [running_apply q n, colSums_block V c Wr hW k ⟨n + 1, h⟩ q, ← EReal.coe_add, ← Finset.sum_range_succ]

include hW in
/-- The entry at column `k` of the row region 0 leaves is the sum of column `k` of the weights. -/
theorem result_apply (q : Fin 1) :
    (result V c : FVec Ideal S1x8192 .f32) (ix2 q k) = ((∑ h : Fin 8192, Wr (ix2 h k) : ℝ) : EReal) := by
  show running V c 15 _ (ix2 q k) = _
  rw [running_apply V c Wr hW k q 15]
  refine congrArg (fun s : ℝ => (s : EReal)) ?_
  show ∑ t ∈ Finset.range 16, ∑ r ∈ Finset.range 512, col Wr k (512 * t + r) = _
  rw [Cert.Law.sum_blocks (col Wr k) 512 16, Finset.sum_range (col Wr k)]
  refine Finset.sum_congr rfl fun h _ => ?_
  unfold col
  rw [dif_pos h.isLt]

end Real

end Cert.KernelIdeal.ColumnSums

end
-- ==== Proof.Region1Value.lean ====
/-
  Region 1 as a value, over the extended reals. The second launch walks the 4096 x 8192 input in 8 blocks of 512 rows;
  at every point it also holds the whole one-row array `w` that the first launch left. For each of its 512 rows it
  multiplies the row entry by entry with `w`, sums the 8192 products, and scales the sum by the constant 3/4; the 512
  results are the point's block of the 4096 x 1 result. So entry (b, 0) of the result is

      (sum over k of x[b, k] * w[0, k]) * 3/4,

  one function of the two arrays the launch reads. Here: the body's arithmetic read at an index (the reshape, the sum
  along a row, the broadcast of `w` down the rows), the two blocks a point reads as entries of the arrays (row
  512 t + r of `x`; all of `w`), that what point t writes back is block t of that one function, and that the eight
  blocks cover the result (row b lies in block b / 512).
-/
import proofs.«174365_j73315091744718_1_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.RowDots

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The constant the kernel scales by, as its word. -/
abbrev scale : EReal := Ideal.ofBits .f32 0x3F400000#32

/-- Row `b` of `x` times the one row `w`, entry by entry, summed, scaled: entry (b, 0) of the result. -/
def rowDots (x : FVec Ideal S4096x8192 .f32) (w : FVec Ideal S1x8192 .f32) : FVec Ideal S4096x1 .f32 :=
  fun j => (∑ k : Fin 8192, x (ix2 (⟨(j 0).val, (j 0).isLt⟩ : Fin 4096) k) * w (ix2 (0 : Fin 1) k)) * scale

/-- The body's arithmetic at row `p` of a block: the sum along the row of the block's entries times `w`'s, scaled. -/
theorem pay_apply (x0 : FVec Ideal S512x8192 .f32) (x1 : FVec Ideal S1x8192 .f32) (p : Fin 512) (q : Fin 1) :
    k1_pay1 (F := Ideal) x0 x1 (ix2 p q) = (∑ k : Fin 8192, x0 (ix2 p k) * x1 (ix2 (0 : Fin 1) k)) * scale := by
  unfold k1_pay1
  show shapeCast S512x1 (multiReduction (F := Ideal) .add [1] S512 (mulf x0 (broadcastTo S512x8192 (shapeCast S1x8192 x1 shapeCasts_S1x8192_S1x8192) broadcasts_S1x8192_S512x8192)) 0x00000000#32 reduces_S512x8192_S512 (.inl rfl) rfl) shapeCasts_S512_S512x1 (ix2 p q) * scale = _
  refine congrArg (· * scale) ?_
  refine (shapeCast_apply _ shapeCasts_S512_S512x1 (ix2 p q) (ix1 p) ?_).trans ?_
  · rw [Shape.rowMajor_val_one, Shape.rowMajor_val_two]
    show p.val = p.val * 1 + q.val
    have := q.isLt; omega
  refine (Ideal.multiReduction_add_single _ 0x00000000#32 reduces_S512x8192_S512 (.inl rfl) rfl (ix1 p)).trans ?_
  refine Finset.sum_congr rfl fun k _ => ?_
  have hl : reduces_S512x8192_S512.lift (ix1 p) k = ix2 p k :=
    funext fun a => Fin.ext (by match a with | ⟨0, _⟩ => rfl | ⟨1, _⟩ => rfl)
  rw [hl]
  show x0 (ix2 p k) * broadcastTo S512x8192 (shapeCast S1x8192 x1 shapeCasts_S1x8192_S1x8192) broadcasts_S1x8192_S512x8192 (ix2 p k) = _
  refine congrArg (x0 (ix2 p k) * ·) ?_
  rw [shapeCast_self]
  exact broadcastTo_apply x1 broadcasts_S1x8192_S512x8192 (ix2 p k) (ix2 (0 : Fin 1) k) (fun a => by
    match a with
    | ⟨0, _⟩ => rfl
    | ⟨1, _⟩ => rfl)

/-- The printed index maps over the grid: the input's and the result's block row is the point, `w`'s block never moves. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `r` of the input's block at point `t` is row 512 t + r of the input array. -/
theorem xblock_apply (c : Dev nD) (t : Fin cfg1.N) (r : Fin 512) (k : Fin 8192) (b : Fin 4096) (hb : b.val = 512 * t.val + r.val) :
    (iblk1 V c 0 t : FVec Ideal S512x8192 .f32) (ix2 r k) = V c main_arg0 (ix2 b k) := by
  obtain ⟨e0, e1, -⟩ := idx_facts t
  unfold iblk1
  rw [View.read_apply]
  show V c main_arg0 _ = V c main_arg0 _
  refine congrArg (V c main_arg0) (funext fun a => Fin.ext ?_)
  match a with
  | ⟨0, _⟩ => show win1_0.index t (0 : Fin 2) * 512 + 1 * r.val = b.val; rw [e0, hb]; omega
  | ⟨1, _⟩ => show win1_0.index t (1 : Fin 2) * 8192 + 1 * k.val = k.val; rw [e1]; omega

/-- The block of `w` a point reads is all of `w`: its block index never moves and the block is the array. -/
theorem wblock_apply (c : Dev nD) (t : Fin cfg1.N) (k : Fin 8192) :
    (iblk1 V c 1 t : FVec Ideal S1x8192 .f32) (ix2 (0 : Fin 1) k) = V c main_v0 (ix2 (0 : Fin 1) k) := by
  obtain ⟨-, -, e2, e3, -⟩ := idx_facts t
  unfold iblk1
  rw [View.read_apply]
  show V c main_v0 _ = V c main_v0 _
  refine congrArg (V c main_v0) (funext fun a => Fin.ext ?_)
  match a with
  | ⟨0, _⟩ => show win1_1.index t (0 : Fin 2) * 1 + 1 * 0 = 0; rw [e2]
  | ⟨1, _⟩ => show win1_1.index t (1 : Fin 2) * 8192 + 1 * k.val = k.val; rw [e3]; omega

/-- What point `t` writes back is block `t` of the row dots of the two arrays as the launch finds them. -/
theorem flushed_eq (c : Dev nD) (t : Fin cfg1.N) :
    (dat1 V c).flushed 2 t = ((cfg1.win 2).blk t).view.read (Elt Ideal) (rowDots (V c main_arg0) (V c main_v0)) := by
  obtain ⟨-, -, -, -, e4, e5⟩ := idx_facts t
  show (cfg1.win 2).cut (grid1.coords t) ((dat1 V c).after 2 t) = _
  rw [after1_2]
  unfold out1_2
  rw [View.canon_unit_zero hz]
  simp only [View.ld_unit_zero (S := S512x8192) hz, View.ld_unit_zero (S := S1x8192) hz]
  funext y
  have hy : y = ix2 (y 0) (y 1) := eq_ix2 y
  rw [View.read_apply]
  show k1_pay1 (F := Ideal) (iblk1 V c 0 t) (iblk1 V c 1 t) y = rowDots (V c main_arg0) (V c main_v0) (((cfg1.win 2).blk t).view.emb y)
  rw [hy]
  refine (pay_apply (iblk1 V c 0 t) (iblk1 V c 1 t) (y 0) (y 1)).trans ?_
  unfold rowDots
  refine congrArg (· * scale) (Finset.sum_congr rfl fun k _ => ?_)
  exact congrArg₂ (fun u v : EReal => u * v)
    (xblock_apply V c t (y 0) k _ (by
      show win1_2.index t (0 : Fin 2) * 512 + 1 * (y 0).val = 512 * t.val + (y 0).val
      rw [e4]; omega))
    (wblock_apply V c t k)

/-- An index of the result is in point `t`'s block iff each coordinate is in the block's range on its axis. -/
theorem mem_blk (t : Fin cfg1.N) (i : S4096x1.Idx) :
    i ∈ ((cfg1.win 2).blk t).view.set ↔ ∀ a : Fin 2, win1_2.index t a * S512x1.size a ≤ (i a).val ∧ (i a).val < win1_2.index t a * S512x1.size a + S512x1.size a := by
  show i ∈ ((View.whole main_v1).slice (win1_2.rect t)).set ↔ _
  rw [View.set_slice_whole, Rect.mem_set_unit]
  exact Iff.rfl

/-- Every row of the result lies in some point's block: row `b` in block `b / 512`. -/
theorem covered (i : S4096x1.Idx) : ∃ t : Fin cfg1.N, (cfg1.win 2).flush t = true ∧ i ∈ ((cfg1.win 2).blk t).view.set := by
  have hN : cfg1.N = 8 := N_1
  have hi0 : (i 0).val < 4096 := (i 0).isLt
  have hi1 : (i 1).val < 1 := (i 1).isLt
  let t : Fin cfg1.N := ⟨(i 0).val / 512, by omega⟩
  obtain ⟨-, -, -, -, e4, e5⟩ := idx_facts t
  have ht : t.val = (i 0).val / 512 := rfl
  refine ⟨t, flush1_2 t, ?_⟩
  rw [mem_blk]
  intro a
  match a with
  | ⟨0, _⟩ => show win1_2.index t (0 : Fin 2) * 512 ≤ (i 0).val ∧ (i 0).val < win1_2.index t (0 : Fin 2) * 512 + 512; rw [e4]; omega
  | ⟨1, _⟩ => show win1_2.index t (1 : Fin 2) * 1 ≤ (i 1).val ∧ (i 1).val < win1_2.index t (1 : Fin 2) * 1 + 1; rw [e5]; omega

/-- So the array the second launch writes ends at the row dots of the two arrays it reads. -/
theorem final (c : Dev nD) : (dat1 V c).arrAt 2 cfg1.N = rowDots (V c main_arg0) (V c main_v0) :=
  (dat1 V c).arrAt_eq_of_cover 2 (rowDots (V c main_arg0) (V c main_v0)) (fun t _ => flushed_eq V c t) covered

end Cert.KernelIdeal.RowDots

end
-- ==== Proof.RefValue.lean ====
/-
  The reference program read index by index, over the extended reals: entry (b, 0) of its result is

      (0 + sum over h of ((sum over k of x[b, k] * W[h, k]) / 2)) * 3/2,

  the contraction of row b of the input with row h of the weights, halved, added over the 8192 rows h of the weights from
  zero, and scaled. The program's operations are read one at a time (the contraction as a sum of products, the reduction
  as its initial value plus a sum, the broadcasts as re-indexings), and the composed indices are the plain pairs (b, k)
  and (h, k).
-/
import proofs.«174365_j73315091744718_1_alg».proof.Proof.Gen.ReferenceIdeal.Run
import proofs.«174365_j73315091744718_1_alg».proof.Proof.Gen.ReferenceIdeal.Read

noncomputable section

namespace Cert.ReferenceIdeal.RefValue

open Cert.ReferenceIdeal Cert.ReferenceIdeal.Gen Cert.ReferenceIdeal.Read
open Idealize.ShloMosaic Idealize.ShloMosaic.ValueIdx
open scoped BigOperators

/-- Row `b` of the result reads the input at (b, k): the composed index on the contraction's left. -/
theorem lidx_eq (j : S4096x1.Idx) (h k : Fin 8192) :
    lidx_main_v0 (idx_main_v3 (idx_main_v4 j) h) k = ix2 (⟨(j 0).val, (j 0).isLt⟩ : Fin 4096) k :=
  funext fun a => Fin.ext (by match a with | ⟨0, _⟩ => rfl | ⟨1, _⟩ => rfl)

/-- Term `h` of the sum reads the weights at (h, k): the composed index on the contraction's right. -/
theorem ridx_eq (j : S4096x1.Idx) (h k : Fin 8192) :
    ridx_main_v0 (idx_main_v3 (idx_main_v4 j) h) k = ix2 h k :=
  funext fun a => Fin.ext (by match a with | ⟨0, _⟩ => rfl | ⟨1, _⟩ => rfl)

/-- The reference's result at an index, over the extended reals. -/
theorem val_apply (x : FVec Ideal S4096x8192 .f32) (W : FVec Ideal S8192x8192 .f32) (j : S4096x1.Idx) :
    val_main_v6 (F := Ideal) x W j
      = (Ideal.ofBits .f32 0x00000000#32
          + ∑ h : Fin 8192, Ideal.div (∑ k : Fin 8192, x (ix2 (⟨(j 0).val, (j 0).isLt⟩ : Fin 4096) k) * W (ix2 h k))
              (Ideal.ofBits .f32 0x40000000#32))
        * Ideal.ofBits .f32 0x3FC00000#32 := by
  rw [val_main_v6_apply, val_main_v4_apply, val_main_v3_apply, val_main_v5_apply, val_main_cst_1_apply, val_main_cst_0_apply]
  simp only [val_main_v2_apply, val_main_v0_apply, val_main_v1_apply, val_main_cst_apply, lidx_eq, ridx_eq,
    Ideal.mulf_def, Ideal.hostDivf_def, Ideal.ofBits_def]

end Cert.ReferenceIdeal.RefValue

end
-- ==== Proof.Finite.lean ====
/-
  The precondition, decoded: if the printed predicate "every entry of both inputs is smaller than +infinity in absolute
  value" holds, then every entry of both arrays is a real number.

  The predicate is the conjunction of two reductions by "and" over all entries of a comparison  |x| < +infinity. So it
  gives the comparison at every index of each array. Over the extended reals |x| is max(x, -x), and the word 0x7F800000
  denotes +infinity; max(x, -x) < +infinity rules out both infinities, and what is left of the extended reals is the reals.
-/
import proofs.«174365_j73315091744718_1_alg».proof.Pre_finite_inputs
import proofs.«174365_j73315091744718_1_alg».proof.Proof.LibAllReal
import Idealize.ShloMosaic.Lib.ReduceAll
import Idealize.ShloMosaic.Lib.Affine
import Idealize.ShloMosaic.Lib.ValueIdx

noncomputable section

namespace Cert.Finite

open Idealize.ShloMosaic Cert.Spec

instance : Subsingleton Cert.Pre_finite_inputs.S_.Idx := ⟨fun a b => funext fun d => d.elim0⟩

/-- An extended real whose absolute value compares below the word for +infinity is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  induction x with
  | bot => simp at hlt
  | coe r => exact ⟨r, rfl⟩
  | top => simp at hlt

variable [Cert.Pre_finite_inputs.Facts]

/-- If the printed precondition holds of two arrays over the extended reals, every entry of both is a real number. -/
theorem allReal_of_fn (x : FVec Ideal Cert.Pre_finite_inputs.S4096x8192 .f32) (W : FVec Ideal Cert.Pre_finite_inputs.S8192x8192 .f32)
    (h : Cert.Pre_finite_inputs.fn (F := Ideal) x W = fun _ => 1#1) : AllReal x ∧ AllReal W := by
  have h0 := congrFun h ValueIdx.ix0
  dsimp only [Cert.Pre_finite_inputs.fn] at h0
  obtain ⟨h1, h2⟩ := IntOp.andi_eq_one.mp h0
  exact ⟨fun i => real_of_abs_lt _ (Host.reduce_andi_all _ _ _ _ _ h1 i),
    fun i => real_of_abs_lt _ (Host.reduce_andi_all _ _ _ _ _ h2 i)⟩

end Cert.Finite

end
-- ==== Proof.Consts.lean ====
/-
  The float constants the two programs spell, as the real numbers their words denote: 3/4 (the kernel's scale), 2 (the
  reference's divisor) and 3/2 (the reference's scale). All three are exact binary fractions, so the words denote exactly
  these numbers, and 3/2 divided by 2 is 3/4.
-/
import proofs.«174365_j73315091744718_1_alg».proof.Proof.LibAllReal

noncomputable section

namespace Cert.Consts

open Idealize.ShloMosaic

/-- The word `0x3F400000` denotes 3/4. -/
theorem ofBits_three_quarters : Ideal.ofBits .f32 0x3F400000#32 = ((3 / 4 : ℝ) : EReal) := by
  simp [Ideal.ofBits, Ideal.ieee, -EReal.coe_mul]; norm_num

/-- The word `0x40000000` denotes 2. -/
theorem ofBits_two : Ideal.ofBits .f32 0x40000000#32 = ((2 : ℝ) : EReal) := by
  simp [Ideal.ofBits, Ideal.ieee, -EReal.coe_mul]; norm_num

/-- The word `0x3FC00000` denotes 3/2. -/
theorem ofBits_three_halves : Ideal.ofBits .f32 0x3FC00000#32 = ((3 / 2 : ℝ) : EReal) := by
  simp [Ideal.ofBits, Ideal.ieee, -EReal.coe_mul]; norm_num

end Cert.Consts

end
-- ==== Proof.Bridge.lean ====
/-
  The two programs compute the same array, when every input entry is a real number.

  The kernel's result array is what its second launch leaves: the row dots of the input with the one row the first launch
  left, and that row holds, column by column, the sum of the column of the weights (when the weights are reals). So entry
  (b, 0) of the kernel's result is  (sum_k x[b,k] * sum_h W[h,k]) * 3/4  as a real number. The reference's entry (b, 0) is
  (0 + sum_h (sum_k x[b,k] * W[h,k]) / 2) * 3/2,  also a real number, and the two real numbers are equal because a finite
  sum of products factors. The precondition is what makes every entry real.
-/
import proofs.«174365_j73315091744718_1_alg».proof.Defs
import proofs.«174365_j73315091744718_1_alg».proof.Proof.Gen.Pre_finite_inputs
import proofs.«174365_j73315091744718_1_alg».proof.Proof.KernelRun
import proofs.«174365_j73315091744718_1_alg».proof.Proof.Region0Ideal
import proofs.«174365_j73315091744718_1_alg».proof.Proof.Region1Value
import proofs.«174365_j73315091744718_1_alg».proof.Proof.RefValue
import proofs.«174365_j73315091744718_1_alg».proof.Proof.Finite
import proofs.«174365_j73315091744718_1_alg».proof.Proof.Consts
import proofs.«174365_j73315091744718_1_alg».proof.Proof.RealLaw

noncomputable section

open Idealize.ShloMosaic Idealize.ShloMosaic.TcCoe Idealize.SL.Sem
open Idealize.ShloMosaic.ValueIdx
open scoped BigOperators

namespace Cert.Bridge

open Cert.KernelIdeal Cert.KernelIdeal.Gen

/-- Entry by entry: the row dots of real inputs with the column sums of real weights are the reference's result. -/
theorem entries_eq (x : FVec Ideal S4096x8192 .f32) (W : FVec Ideal S8192x8192 .f32) (w : FVec Ideal S1x8192 .f32)
    (xr : S4096x8192.Idx → ℝ) (Wr : S8192x8192.Idx → ℝ)
    (hx : ∀ i, x i = ((xr i : ℝ) : EReal)) (hW : ∀ i, W i = ((Wr i : ℝ) : EReal))
    (hw : ∀ k : Fin 8192, w (ix2 (0 : Fin 1) k) = ((∑ h : Fin 8192, Wr (ix2 h k) : ℝ) : EReal))
    (j : S4096x1.Idx) :
    Cert.KernelIdeal.RowDots.rowDots x w j = Cert.ReferenceIdeal.Read.val_main_v6 (F := Ideal) x W j := by
  rw [Cert.ReferenceIdeal.RefValue.val_apply]
  unfold Cert.KernelIdeal.RowDots.rowDots
  have key := Cert.Law.dot_of_column_sums (fun k : Fin 8192 => xr (ix2 (⟨(j 0).val, (j 0).isLt⟩ : Fin 4096) k))
    (fun (h k : Fin 8192) => Wr (ix2 h k))
  rw [zero_add] at key
  simp only [hx, hW, hw, Cert.Consts.ofBits_three_quarters, Cert.Consts.ofBits_two, Cert.Consts.ofBits_three_halves,
    Ideal.ofBits_zero_f32, zero_add, Ideal.div_coe (two_ne_zero : (2 : ℝ) ≠ 0), ← EReal.coe_mul, ← Cert.Law.coe_sum]
  exact congrArg (fun s : ℝ => (s : EReal)) key.symm

section Memory

variable (m : (ℓ : Loc nD τ sig) → Buf (Elt Ideal) ℓ) (ρ : Dev nD → PrngReg)

/-- The kernel's result array, from the launch memory: the row dots of the input with the row the first launch leaves. -/
theorem kernel_result (c : Dev nD) :
    (dat1 (V1 m ρ) c).arrAt 2 cfg1.N
      = Cert.KernelIdeal.RowDots.rowDots (m ((c.tc : Thread nD τ).loc main_arg0)) (Cert.KernelIdeal.ColumnSums.result (V0 m ρ) c) := by
  rw [Cert.KernelIdeal.RowDots.final (V1 m ρ) c]
  have e0 : V1 m ρ c main_arg0 = m ((c.tc : Thread nD τ).loc main_arg0) := W1_of_ne m ρ c main_arg0 (by decide)
  have e1 : V1 m ρ c main_v0 = Cert.KernelIdeal.ColumnSums.result (V0 m ρ) c :=
    (W1_arr m ρ c 1).trans (Cert.KernelIdeal.ColumnSums.final (V0 m ρ) c)
  rw [e0, e1]

end Memory

section Claim

variable (m : (ℓ : Loc nD τ sig) → Buf (Elt Ideal) ℓ) (ρ : Dev nD → PrngReg)

/-- Under the precondition the kernel's result array is the reference's result of the same two arguments: the
    precondition makes every entry of both arguments a real number, and then the entries agree one by one. -/
theorem kernel_eq_reference (hpre : Cert.Pre_KernelIdeal m) (c : Dev nD) :
    (dat1 (V1 m ρ) c).arrAt 2 cfg1.N
      = Cert.ReferenceIdeal.Read.val_main_v6 (F := Ideal) (m ((c.tc : Thread nD τ).loc main_arg0)) (m ((c.tc : Thread nD τ).loc main_arg1)) := by
  obtain ⟨hx, hW⟩ := Cert.Finite.allReal_of_fn _ _ (hpre c)
  choose xr hxr using hx
  choose Wr hWr using hW
  rw [kernel_result m ρ c]
  funext j
  exact entries_eq _ _ _ xr Wr hxr hWr (fun k => Cert.KernelIdeal.ColumnSums.result_apply (V0 m ρ) c Wr hWr k 0) j

end Claim

/-- Both programs run, from memories that agree on the two arguments, and end with the same result array: the kernel's
    run names its result as what the second launch leaves, the reference's run names its own as its composed term, and
    under the precondition the two are one array. -/
theorem algebraic : Cert.algebraic_KernelIdeal_ReferenceIdeal := by
  intro m ρ m' ρ' hpre hagree
  refine ⟨fun c => (dat1 (V1 m ρ) c).arrAt 2 cfg1.N, Cert.KernelIdeal.RunValue.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v6_eq _ _).trans (kernel_eq_reference m ρ hpre c).symm

end Cert.Bridge

end
-- ==== Proof.lean ====
/-
  The certificate's claim: the two-launch kernel and the reference compute the same array over the reals.

  The kernel never forms the 4096 x 8192 product of the input with the weights. Its first launch adds the weights down each
  column (16 blocks of 512 rows into one resident row), its second multiplies each input row with that row of column sums,
  adds along the row and scales by 3/4. The reference forms every row-by-row product, halves it, adds over the rows of the
  weights and scales by 3/2. Over the real numbers these are one function, because a finite sum of products factors and
  3/2 / 2 = 3/4; the precondition (every input entry finite) is what puts the extended reals the programs are read over
  back among the reals, where that factoring holds.

  The three frames: the two kernel programs' are the generated frames; the reference has no kernel, and its frame is its
  generated run with the result dropped. The idealization rewrote nothing, so that conjunct is trivial. The value
  conjunct is `Cert.Bridge.algebraic`.
-/
import proofs.«174365_j73315091744718_1_alg».proof.Defs
import proofs.«174365_j73315091744718_1_alg».proof.Proof.Gen.Kernel
import proofs.«174365_j73315091744718_1_alg».proof.Proof.Gen.Kernel.Skeleton
import proofs.«174365_j73315091744718_1_alg».proof.Proof.Gen.Kernel.Launch
import proofs.«174365_j73315091744718_1_alg».proof.Proof.Gen.Kernel.Points
import proofs.«174365_j73315091744718_1_alg».proof.Proof.Gen.Kernel.Frame
import proofs.«174365_j73315091744718_1_alg».proof.Proof.Gen.KernelIdeal
import proofs.«174365_j73315091744718_1_alg».proof.Proof.Gen.KernelIdeal.Skeleton
import proofs.«174365_j73315091744718_1_alg».proof.Proof.Gen.KernelIdeal.Launch
import proofs.«174365_j73315091744718_1_alg».proof.Proof.Gen.KernelIdeal.Points
import proofs.«174365_j73315091744718_1_alg».proof.Proof.Gen.KernelIdeal.Frame
import proofs.«174365_j73315091744718_1_alg».proof.Proof.Gen.ReferenceIdeal
import proofs.«174365_j73315091744718_1_alg».proof.Proof.Gen.ReferenceIdeal.Run
import proofs.«174365_j73315091744718_1_alg».proof.Proof.Gen.Pre_finite_inputs
import proofs.«174365_j73315091744718_1_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Bridge.algebraic⟩

end Cert.Proof

end
